-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x64 : Shape := ⟨3, ![32, 8192, 64]⟩
abbrev S32x64x64 : Shape := ⟨3, ![32, 64, 64]⟩
abbrev S_ : Shape := ⟨0, ![]⟩

class Facts : Prop where
  bcast_S_S32x8192x64 : S_.BroadcastsInDim S32x8192x64 (![] : Fin 0 → Fin S32x8192x64.rank)
  reducesTo_S32x8192x64_S_d0_1_2 : S32x8192x64.ReducesTo [0, 1, 2] S_
  h_S_ : 0 < S_.numel
  bcast_S_S32x64x64 : S_.BroadcastsInDim S32x64x64 (![] : Fin 0 → Fin S32x64x64.rank)
  reducesTo_S32x64x64_S_d0_1_2 : S32x64x64.ReducesTo [0, 1, 2] S_

variable [Facts]

def fn {F : FTy → Type} [FloatOps F] (main_arg0 : FVec F S32x8192x64 .f32) (main_arg1 : FVec F S32x64x64 .f32) : IVec S_ 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_c : IVec S_ 1 := constantI S_ 1 1#1
  let main_v3 : IVec S_ 1 := (fun x v => Host.reduce IntOp.andi x v reducesTo_S32x8192x64_S_d0_1_2 h_S_) main_v2 main_c
  let main_v4 : FVec F S32x64x64 .f32 := Host.absf main_arg1
  let main_cst_0 : FVec F S_ .f32 := constant S_ .f32 0x7F800000#32
  let main_v5 : FVec F S32x64x64 .f32 := broadcastInDim S32x64x64 ![] bcast_S_S32x64x64 main_cst_0
  let main_v6 : IVec S32x64x64 1 := cmpf .olt main_v4 main_v5
  let main_c_1 : IVec S_ 1 := constantI S_ 1 1#1
  let main_v7 : IVec S_ 1 := (fun x v => Host.reduce IntOp.andi x v reducesTo_S32x64x64_S_d0_1_2 h_S_) main_v6 main_c_1
  let main_v8 : IVec S_ 1 := andi main_v3 main_v7
  main_v8
-- ==== Kernel.lean ====
abbrev S32x8192x64 : Shape := ⟨3, ![32, 8192, 64]⟩
abbrev S32x64x64 : Shape := ⟨3, ![32, 64, 64]⟩
abbrev S1x1 : Shape := ⟨2, ![1, 1]⟩
abbrev S32x1024x64 : Shape := ⟨3, ![32, 1024, 64]⟩
abbrev S32x1 : Shape := ⟨2, ![32, 1]⟩
abbrev S32 : Shape := ⟨1, ![32]⟩
abbrev S1x32x1 : Shape := ⟨3, ![1, 32, 1]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S32x8192x64, .f32⟩
  | .hbm, ⟨1, _⟩ => ⟨S32x64x64, .f32⟩
  | .hbm, ⟨2, _⟩ => ⟨S1x1, .f32⟩
  | .hbm, ⟨3, _⟩ => ⟨S_, .f32⟩
  | .local _ .vmem, ⟨0, _⟩ => ⟨S32x1024x64, .f32⟩
  | .local _ .vmem, ⟨1, _⟩ => ⟨S32x1024x64, .f32⟩
  | .local _ .vmem, ⟨2, _⟩ => ⟨S32x64x64, .f32⟩
  | .local _ .vmem, ⟨3, _⟩ => ⟨S1x1, .f32⟩
  | .local _ .vmem, ⟨4, _⟩ => ⟨S32x1, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v17 : BitVec 1 := Scalar.cmpi .eq arg0 c7_i32
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x1024x64_S32x1024x64_0_0_0 : ∀ a, (![0, 0, 0] : Fin 3 → Nat) a + S32x1024x64.size a ≤ S32x1024x64.size a
  h_S32x1024x64 : 0 < S32x1024x64.numel
  bitsLt_bf16_f32 : FTy.bits .bf16 < FTy.bits .f32
  inb_S32x64x64_S32x64x64_0_0_0 : ∀ a, (![0, 0, 0] : Fin 3 → Nat) a + S32x64x64.size a ≤ S32x64x64.size a
  h_S32x64x64 : 0 < S32x64x64.numel
  reduces_S32x1024x64_S32 : S32x1024x64.Reduces [1, 2] S32
  shapeCasts_S32_S32x1 : S32.ShapeCasts S32x1
  shapeCasts_S32x1_S1x32x1 : S32x1.ShapeCasts S1x32x1
  reduces_S1x32x1_S1 : S1x32x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S32x1024x64_S32x64x64_S32x1024x64_2_1_1_2_0_0_wf : DotDims.WF S32x1024x64 S32x64x64 S32x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024x64.size a ≤ S32x8192x64.size a
  hwx0_0 : ∀ i : grid0.Coords, EltTy.bits .f32 = 32 ∨ (Rect.block (s := S32x8192x64) S32x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64x64.size a ≤ S32x64x64.size a
  hwx0_1 : ∀ i : grid0.Coords, EltTy.bits .f32 = 32 ∨ (Rect.block (s := S32x64x64) S32x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S32x1024x64_S32x64x64_S32x1024x64_2_1_1_2_0_0 : DotDims S32x1024x64 S32x64x64 S32x1024x64 where
  lhsContracting := [2]
  rhsContracting := [1]
  lhsNonContracting := [1]
  rhsNonContracting := [2]
  lhsBatch := [0]
  rhsBatch := [0]
  wf := dot_S32x1024x64_S32x64x64_S32x1024x64_2_1_1_2_0_0_wf

abbrev win0_0 : Pipeline.Window sig grid0 :=
  Pipeline.Window.ofSpec (Memref.whole main_arg0) S32x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x8192x64 : Shape := ⟨3, ![32, 8192, 64]⟩
abbrev S32x64x64 : Shape := ⟨3, ![32, 64, 64]⟩
abbrev S_ : Shape := ⟨0, ![]⟩
abbrev S32 : Shape := ⟨1, ![32]⟩

abbrev nBuf : Space → Nat
  | .hbm => 13
  | .vmem => 0
  | .smem => 0
  | _ => 0

abbrev bufTy : (tb : Table) → Fin (tcTables nBuf tb) → BufTy
  | .hbm, ⟨0, _⟩ => ⟨S32x8192x64, .f32⟩
  | .hbm, ⟨1, _⟩ => ⟨S32x64x64, .f32⟩
  | .hbm, ⟨2, _⟩ => ⟨S32x8192x64, .f32⟩
  | .hbm, ⟨3, _⟩ => ⟨S_, .f32⟩
  | .hbm, ⟨4, _⟩ => ⟨S32x8192x64, .f32⟩
  | .hbm, ⟨5, _⟩ => ⟨S32x8192x64, .f32⟩
  | .hbm, ⟨6, _⟩ => ⟨S_, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S_, .f32⟩
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S_S32x8192x64 : S_.BroadcastsInDim S32x8192x64 (![] : Fin 0 → Fin S32x8192x64.rank)
  reducesTo_S32x8192x64_S32_d1_2 : S32x8192x64.ReducesTo [1, 2] S32
  h_S_ : 0 < S_.numel
  bcast_S_S32 : S_.BroadcastsInDim S32 (![] : Fin 0 → Fin S32.rank)
  reducesTo_S32_S_d0 : S32.ReducesTo [0] S_
  dot_S32x8192x64_S32x64x64_S32x8192x64_2_1_1_2_0_0_wf : DotDims.WF S32x8192x64 S32x64x64 S32x8192x64 [2] [1] [1] [2] [0] [0]

variable [Facts₀]

def dot_S32x8192x64_S32x64x64_S32x8192x64_2_1_1_2_0_0 : DotDims S32x8192x64 S32x64x64 S32x8192x64 where
  lhsContracting := [2]
  rhsContracting := [1]
  lhsNonContracting := [1]
  rhsNonContracting := [2]
  lhsBatch := [0]
  rhsBatch := [0]
  wf := dot_S32x8192x64_S32x64x64_S32x8192x64_2_1_1_2_0_0_wf

class Facts : Prop extends Facts₀ where

variable [Facts]
-- ==== Proof.Pieces.lean ====
/-
  What each control case of the kernel body leaves behind, as pure terms of what it loaded.

  The body keeps a 32x1 running-sum scratch across the eight grid points.  At the first point it stores the zero
  column, reads it back and stores (zero + partial); at every later point it stores (previous + partial); at the
  last point it also reads the fresh scratch back and stores the one-element output computed from it.  So, whatever
  the float instance, the scratch after a point is the second payload of the point's two input blocks and of what
  the scratch held before (the zero column at the first point), and the output after the last point is the third
  payload of that scratch.
-/
import proofs.«170011_j1580547969507_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Later points that are not the last: the scratch ends at the running-sum payload over what it held. -/
theorem scratch_B (c : Dev nD) (i : grid0.Coords) (a1 : Memref sig .tc .vmem S32x1024x64 .f32) (h1 : a1.IsWhole)
    (a2 : Memref sig .tc .vmem S32x64x64 .f32) (h2 : a2.IsWhole) (a3 : Memref sig .tc .vmem S1x1 .f32) (h3 : a3.IsWhole)
    (a4 : Memref sig .tc .vmem S32x1 .f32) (h4 : a4.IsWhole) (hc0 : ¬cond0_0 i) (hc1 : ¬cond0_1 i)
    (x0 : Vec F S32x1024x64 .f32) (x1 : Vec F S32x64x64 .f32) (xs0 : Vec F S32x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S32x1024x64) hz3,
    View.ld_unit_zero (S := S32x64x64) hz3, View.ld_unit_zero (S := S32x1) hz2]

/-- The last point: the scratch ends at the same payload over what it held. -/
theorem scratch_C (c : Dev nD) (i : grid0.Coords) (a1 : Memref sig .tc .vmem S32x1024x64 .f32) (h1 : a1.IsWhole)
    (a2 : Memref sig .tc .vmem S32x64x64 .f32) (h2 : a2.IsWhole) (a3 : Memref sig .tc .vmem S1x1 .f32) (h3 : a3.IsWhole)
    (a4 : Memref sig .tc .vmem S32x1 .f32) (h4 : a4.IsWhole) (hc0 : ¬cond0_0 i) (hc1 : cond0_1 i)
    (x0 : Vec F S32x1024x64 .f32) (x1 : Vec F S32x64x64 .f32) (xs0 : Vec F S32x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S32x1024x64) hz3,
    View.ld_unit_zero (S := S32x64x64) hz3, View.ld_unit_zero (S := S32x1) hz2]

/-- The last point: the output's one element is the third payload of the scratch the point has just stored. -/
theorem out_C (c : Dev nD) (i : grid0.Coords) (a1 : Memref sig .tc .vmem S32x1024x64 .f32) (h1 : a1.IsWhole)
    (a2 : Memref sig .tc .vmem S32x64x64 .f32) (h2 : a2.IsWhole) (a3 : Memref sig .tc .vmem S1x1 .f32) (h3 : a3.IsWhole)
    (a4 : Memref sig .tc .vmem S32x1 .f32) (h4 : a4.IsWhole) (hc0 : ¬cond0_0 i) (hc1 : cond0_1 i)
    (x0 : Vec F S32x1024x64 .f32) (x1 : Vec F S32x64x64 .f32) (xs0 : Vec F S32x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S32x1024x64) hz3,
    View.ld_unit_zero (S := S32x64x64) hz3, View.ld_unit_zero (S := S32x1) hz2, View.readCov_unit_zero (S := S32x1) _ hz2]

/-- The first point: the zero column is stored and read back, so the scratch ends at the payload over it. -/
theorem scratch_A (c : Dev nD) (i : grid0.Coords) (a1 : Memref sig .tc .vmem S32x1024x64 .f32) (h1 : a1.IsWhole)
    (a2 : Memref sig .tc .vmem S32x64x64 .f32) (h2 : a2.IsWhole) (a3 : Memref sig .tc .vmem S1x1 .f32) (h3 : a3.IsWhole)
    (a4 : Memref sig .tc .vmem S32x1 .f32) (h4 : a4.IsWhole) (hc0 : cond0_0 i) (hc1 : ¬cond0_1 i)
    (x0 : Vec F S32x1024x64 .f32) (x1 : Vec F S32x64x64 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S32x1) hz2, View.readCov_unit_zero (S := S32x1) _ hz2]
  simp only [View.readAt_eq_ld, h1.read_unread, h2.read_unread, View.ld_unit_zero (S := S32x1024x64) hz3,
    View.ld_unit_zero (S := S32x64x64) hz3, View.ld_unit_zero (S := S32x1) hz2]

end Cert.KernelIdeal.Pieces

end
-- ==== Proof.LibSums.lean ====
/-
  Three general facts about finite sums and folds, used to read reductions of tensors index by index.

  * A sum over the indices of a three-axis array whose leading coordinate is fixed is the double sum over the two
    trailing coordinates.
  * A sum over Fin (T * R) splits into T consecutive tiles of R terms: the term at position t * R + r is summed
    over t and r.  Only commutativity and associativity of the addition are used, so it holds in any additive
    commutative monoid (the extended reals included, where cancellation laws fail).
  * Two folds of max over finite families from the same starting value agree as soon as each family's values are
    among the other's: a fold of max is determined by its upper bounds.
-/
import Idealize.ShloMosaic.Lib.ValueIdx
import Mathlib.Algebra.BigOperators.Fin
import Mathlib.Data.Finset.Fold

open Idealize.ShloMosaic Idealize.ShloMosaic.ValueIdx

namespace Cert.LibSums

/-- The indices of an A x B x C array with leading coordinate a, summed, are the (l, r) pairs summed. -/
theorem sum_filter_lead {M : Type*} [AddCommMonoid M] {A B C : Nat} (a : Fin A)
    (P : (⟨3, ![A, B, C]⟩ : Shape).Idx → Prop) [DecidablePred P]
    (hP : ∀ i : (⟨3, ![A, B, C]⟩ : Shape).Idx, P i ↔ (i 0).val = a.val)
    (f : (⟨3, ![A, B, C]⟩ : Shape).Idx → M) :
    ∑ i ∈ Finset.univ.filter P, f i = ∑ l : Fin B, ∑ r : Fin C, f (ix3 a l r) := by
  rw [show (∑ l : Fin B, ∑ r : Fin C, f (ix3 a l r)) = ∑ p : Fin B × Fin C, f (ix3 a p.1 p.2) from
    (Fintype.sum_prod_type (fun p : Fin B × Fin C => f (ix3 a p.1 p.2))).symm]
  have back : ∀ i : (⟨3, ![A, B, C]⟩ : Shape).Idx, (i 0).val = a.val → ix3 a (i 1) (i 2) = i := by
    intro i h0
    funext d
    match d with
    | ⟨0, _⟩ => exact Fin.ext h0.symm
    | ⟨1, _⟩ => rfl
    | ⟨2, _⟩ => rfl
  refine Finset.sum_nbij' (fun i => ((i 1 : Fin B), (i 2 : Fin C))) (fun p => ix3 a p.1 p.2) ?_ ?_ ?_ ?_ ?_
  · intro i _; exact Finset.mem_univ _
  · intro p _; exact Finset.mem_filter.2 ⟨Finset.mem_univ _, (hP _).2 rfl⟩
  · intro i hi; exact back i ((hP i).1 (Finset.mem_filter.1 hi).2)
  · intro p _; rfl
  · intro i hi; exact congrArg f (back i ((hP i).1 (Finset.mem_filter.1 hi).2)).symm

theorem tile_lt {T R : Nat} (t : Fin T) (r : Fin R) : t.val * R + r.val < T * R :=
  Nat.lt_of_lt_of_le (Nat.add_lt_add_left r.isLt _) (by rw [← Nat.succ_mul]; exact Nat.mul_le_mul_right _ t.isLt)

/-- A sum over T * R positions is the sum over the T tiles of the sums over each tile's R positions. -/
theorem sum_fin_tiles {M : Type*} [AddCommMonoid M] (T R : Nat) (g : Fin (T * R) → M) :
    ∑ l, g l = ∑ t : Fin T, ∑ r : Fin R, g ⟨t.val * R + r.val, tile_lt t r⟩ := by
  rw [show (∑ t : Fin T, ∑ r : Fin R, g ⟨t.val * R + r.val, tile_lt t r⟩)
      = ∑ p : Fin T × Fin R, g ⟨p.1.val * R + p.2.val, tile_lt p.1 p.2⟩ from
    (Fintype.sum_prod_type (fun p : Fin T × Fin R => g ⟨p.1.val * R + p.2.val, tile_lt p.1 p.2⟩)).symm]
  refine (Fintype.sum_equiv finProdFinEquiv _ _ (fun p => congrArg g (Fin.ext ?_))).symm
  show p.1.val * R + p.2.val = p.2.val + R * p.1.val
  rw [Nat.mul_comm, Nat.add_comm]

/-- Folds of max from one starting value over two families with the same values are equal. -/
theorem fold_max_eq {α ι κ : Type*} [LinearOrder α] (s : Finset ι) (u : Finset κ) (b : α) (f : ι → α) (g : κ → α)
    (h₁ : ∀ i ∈ s, ∃ k ∈ u, f i = g k) (h₂ : ∀ k ∈ u, ∃ i ∈ s, g k = f i) :
    s.fold max b f = u.fold max b g := by
  refine eq_of_forall_ge_iff fun c => ?_
  rw [Finset.fold_max_le, Finset.fold_max_le]
  constructor
  · rintro ⟨hb, hs⟩
    exact ⟨hb, fun k hk => by obtain ⟨i, hi, e⟩ := h₂ k hk; rw [e]; exact hs i hi⟩
  · rintro ⟨hb, hu⟩
    exact ⟨hb, fun i hi => by obtain ⟨k, hk, e⟩ := h₁ i hi; rw [e]; exact hu k hk⟩

end Cert.LibSums
-- ==== Proof.Payloads.lean ====
/-
  The kernel's three payloads read at an index, over the extended reals.

  * The reset column is the zero word everywhere.
  * The running-sum payload at batch b is what the scratch held at b plus, over the 1024 rows and 64 columns of the
    tile, the batched product of the two blocks clipped at zero: the matrix unit's product into a zero accumulator
    is the plain sum over the contracted coordinate, the narrowing of the operands is the identity, and the
    reduction over the two trailing axes is the sum over all indices with leading coordinate b.
  * The output payload is the maximum over the 32 batches, from the word of minus infinity, of the scratch divided
    by the word of 8192.
-/
import proofs.«170011_j1580547969507_1_alg».proof.Proof.Gen.KernelIdeal.Skeleton
import proofs.«170011_j1580547969507_1_alg».proof.Proof.LibSums
import Idealize.ShloMosaic.PureOps.Ideal.Laws
import Idealize.ShloMosaic.Lib.Pipeline.Value
import Idealize.ShloMosaic.Lib.ValueIdx

noncomputable section

open Idealize.ShloMosaic Idealize.ShloMosaic.TcCoe Idealize.ShloMosaic.ValueIdx

namespace Cert.KernelIdeal.Payloads

open Cert.KernelIdeal Cert.KernelIdeal.Gen

/-- The reset column. -/
theorem zeroCol_apply (j : S32x1.Idx) : k0_pay1 (F := Ideal) j = Ideal.ofBits .f32 0x00000000#32 := by
  unfold k0_pay1
  rw [shapeCast_self]
  rfl

/-! The operand indices of the tile's batched product, axis by axis. -/

theorem lhs_axis0 (i : S32x1024x64.Idx) (q : dot_S32x1024x64_S32x64x64_S32x1024x64_2_1_1_2_0_0.contr.Idx) :
    (dot_S32x1024x64_S32x64x64_S32x1024x64_2_1_1_2_0_0.lhsIdx i q 0).val = (i 0).val := by
  unfold DotDims.lhsIdx
  rw [dif_pos (show (0 : Fin S32x1024x64.rank) ∈ dot_S32x1024x64_S32x64x64_S32x1024x64_2_1_1_2_0_0.lhsBatch by decide)]
  rfl
theorem lhs_axis1 (i : S32x1024x64.Idx) (q : dot_S32x1024x64_S32x64x64_S32x1024x64_2_1_1_2_0_0.contr.Idx) :
    (dot_S32x1024x64_S32x64x64_S32x1024x64_2_1_1_2_0_0.lhsIdx i q 1).val = (i 1).val := by
  unfold DotDims.lhsIdx
  rw [dif_neg (show ¬(1 : Fin S32x1024x64.rank) ∈ dot_S32x1024x64_S32x64x64_S32x1024x64_2_1_1_2_0_0.lhsBatch by decide), dif_pos (show (1 : Fin S32x1024x64.rank) ∈ dot_S32x1024x64_S32x64x64_S32x1024x64_2_1_1_2_0_0.lhsNonContracting by decide)]
  rfl
theorem lhs_axis2 (i : S32x1024x64.Idx) (q : dot_S32x1024x64_S32x64x64_S32x1024x64_2_1_1_2_0_0.contr.Idx) :
    (dot_S32x1024x64_S32x64x64_S32x1024x64_2_1_1_2_0_0.lhsIdx i q 2).val = (q ⟨0, by decide⟩).val :=
  dot_S32x1024x64_S32x64x64_S32x1024x64_2_1_1_2_0_0.lhsIdx_val_of_single rfl i q
theorem rhs_axis0 (i : S32x1024x64.Idx) (q : dot_S32x1024x64_S32x64x64_S32x1024x64_2_1_1_2_0_0.contr.Idx) :
    (dot_S32x1024x64_S32x64x64_S32x1024x64_2_1_1_2_0_0.rhsIdx i q 0).val = (i 0).val := by
  unfold DotDims.rhsIdx
  rw [dif_pos (show (0 : Fin S32x64x64.rank) ∈ dot_S32x1024x64_S32x64x64_S32x1024x64_2_1_1_2_0_0.rhsBatch by decide)]
  rfl
theorem rhs_axis1 (i : S32x1024x64.Idx) (q : dot_S32x1024x64_S32x64x64_S32x1024x64_2_1_1_2_0_0.contr.Idx) :
    (dot_S32x1024x64_S32x64x64_S32x1024x64_2_1_1_2_0_0.rhsIdx i q 1).val = (q ⟨0, by decide⟩).val :=
  dot_S32x1024x64_S32x64x64_S32x1024x64_2_1_1_2_0_0.rhsIdx_val_of_single rfl i q
theorem rhs_axis2 (i : S32x1024x64.Idx) (q : dot_S32x1024x64_S32x64x64_S32x1024x64_2_1_1_2_0_0.contr.Idx) :
    (dot_S32x1024x64_S32x64x64_S32x1024x64_2_1_1_2_0_0.rhsIdx i q 2).val = (i 2).val := by
  unfold DotDims.rhsIdx
  rw [dif_neg (show ¬(2 : Fin S32x64x64.rank) ∈ dot_S32x1024x64_S32x64x64_S32x1024x64_2_1_1_2_0_0.rhsBatch by decide), dif_pos (show (2 : Fin S32x64x64.rank) ∈ dot_S32x1024x64_S32x64x64_S32x1024x64_2_1_1_2_0_0.rhsNonContracting by decide)]
  rfl

/-- The tile's batched product into the zero accumulator at (b, r, h): the sum over the contracted coordinate. -/
theorem blockProduct_apply (u : FVec Ideal S32x1024x64 .bf16) (v : FVec Ideal S32x64x64 .bf16) (b : Fin 32) (r : Fin 1024) (h : Fin 64) :
    matmul dot_S32x1024x64_S32x64x64_S32x1024x64_2_1_1_2_0_0 none u v (constant S32x1024x64 .f32 0x00000000#32) (ix3 b r h)
      = ∑ k : Fin 64, u (ix3 b r k) * v (ix3 b k h) := by
  simp only [matmul]
  rw [Ideal.matmul_constant_zero_apply, ← Equiv.sum_comp (ValueIdx.contrEquiv1 dot_S32x1024x64_S32x64x64_S32x1024x64_2_1_1_2_0_0 64 rfl rfl).symm]
  refine Finset.sum_congr rfl fun k _ => ?_
  have hk := ValueIdx.contrEquiv1_symm_val dot_S32x1024x64_S32x64x64_S32x1024x64_2_1_1_2_0_0 64 rfl rfl k
  have el : dot_S32x1024x64_S32x64x64_S32x1024x64_2_1_1_2_0_0.lhsIdx (ix3 b r h) ((ValueIdx.contrEquiv1 dot_S32x1024x64_S32x64x64_S32x1024x64_2_1_1_2_0_0 64 rfl rfl).symm k) = ix3 b r k := funext fun a => Fin.ext (by
    match a with
    | ⟨0, _⟩ => exact lhs_axis0 _ _
    | ⟨1, _⟩ => exact lhs_axis1 _ _
    | ⟨2, _⟩ => exact (lhs_axis2 _ _).trans hk)
  have er : dot_S32x1024x64_S32x64x64_S32x1024x64_2_1_1_2_0_0.rhsIdx (ix3 b r h) ((ValueIdx.contrEquiv1 dot_S32x1024x64_S32x64x64_S32x1024x64_2_1_1_2_0_0 64 rfl rfl).symm k) = ix3 b k h := funext fun a => Fin.ext (by
    match a with
    | ⟨0, _⟩ => exact rhs_axis0 _ _
    | ⟨1, _⟩ => exact (rhs_axis1 _ _).trans hk
    | ⟨2, _⟩ => exact rhs_axis2 _ _)
  rw [el, er]

/-- The running-sum payload at batch b. -/
theorem runningSum_apply (x0 : Vec Ideal S32x1024x64 .f32) (x1 : Vec Ideal S32x64x64 .f32) (xs : Vec Ideal S32x1 .f32) (b : Fin 32) :
    k0_pay2 (F := Ideal) x0 x1 xs (ix2 b 0)
      = xs (ix2 b 0) + ∑ r : Fin 1024, ∑ h : Fin 64,
          max (∑ k : Fin 64, x0 (ix3 b r k) * x1 (ix3 b k h)) (Ideal.ofBits .f32 0x00000000#32) := by
  unfold k0_pay2
  rw [shapeCast_self]
  refine congrArg (xs (ix2 b 0) + ·) ?_
  refine (shapeCast_apply _ shapeCasts_S32_S32x1 (ix2 b 0) (ix1 b) (by
    rw [Shape.rowMajor_val_one, Shape.rowMajor_val_two]; show b.val = b.val * 1 + 0; omega)).trans ?_
  show Ideal.reduceAdd reduces_S32x1024x64_S32 _ (ix1 b) = _
  unfold Ideal.reduceAdd
  rw [Cert.LibSums.sum_filter_lead b (fun i => reduces_S32x1024x64_S32.drop i = ix1 b) (fun i => ?_)]
  · refine Finset.sum_congr rfl fun r _ => Finset.sum_congr rfl fun h _ => ?_
    refine (maximumf_apply _ _ _).trans ?_
    rw [blockProduct_apply]
    rfl
  · constructor
    · intro e
      exact congrArg (fun j : S32.Idx => (j 0).val) e
    · intro e
      funext d
      match d with
      | ⟨0, _⟩ => exact Fin.ext e

/-- A 32 x 1 column viewed as 1 x 32 x 1 reads (p, b, r) at (b, 0). -/
theorem cast_col (q : S32x1.Idx → EReal) (h : S32x1.ShapeCasts S1x32x1) (p : Fin 1) (b : Fin 32) (r : Fin 1) :
    shapeCast S1x32x1 q h (ix3 p b r) = q (ix2 b 0) :=
  shapeCast_apply q h (ix3 p b r) (ix2 b 0) (by
    rw [Shape.rowMajor_val_two, Shape.rowMajor_val_three]
    have hp : p.val = 0 := by omega
    have hr : r.val = 0 := by omega
    show b.val * 1 + 0 = (p.val * 32 + b.val) * 1 + r.val
    rw [hp, hr]; omega)

/-- The output payload: the maximum over the batches of the scratch over 8192. -/
theorem output_apply (v : Vec Ideal S32x1 .f32) (j : S1x1.Idx) :
    k0_pay3 (F := Ideal) v j
      = (Finset.univ : Finset (Fin 32)).fold max (Ideal.ofBits .f32 0xFF800000#32)
          (fun b => Ideal.div (v (ix2 b 0)) (Ideal.ofBits .f32 0x46000000#32)) := by
  unfold k0_pay3
  refine (broadcast_apply _ j).trans ?_
  unfold extractAt
  refine (shapeCast_apply _ shapeCasts_S1_S1x1x1 _ (ix1 0) (by
    rw [Shape.rowMajor_val_one, Shape.rowMajor_val_three]; rfl)).trans ?_
  refine (multiReduction_maximumf_eq_fold (F := Ideal) _ _ reduces_S1x32x1_S1 _ _ (ix1 0)).trans ?_
  show Finset.fold max (Ideal.ofBits .f32 0xFF800000#32) _ _ = _
  refine Cert.LibSums.fold_max_eq _ _ _ _ _ (fun i _ => ?_) (fun b _ => ⟨ix3 (0 : Fin 1) b (0 : Fin 1), ?_, ?_⟩)
  · obtain ⟨p, q, r, rfl⟩ : ∃ (p : Fin 1) (q : Fin 32) (r : Fin 1), i = ix3 p q r := ⟨i 0, i 1, i 2, eq_ix3 i⟩
    exact ⟨q, Finset.mem_univ _, (cast_col _ _ p q r).trans rfl⟩
  · exact Finset.mem_filter.2 ⟨Finset.mem_univ _, funext fun a => Fin.ext (by
      match a with
      | ⟨0, _⟩ => exact (reduces_S1x32x1_S1.drop_apply_val_of_eq (ix3 (0 : Fin 1) b (0 : Fin 1)) 0 0).trans rfl)⟩
  · exact Eq.symm ((cast_col _ _ 0 b 0).trans rfl)

end Cert.KernelIdeal.Payloads

end
-- ==== Proof.Spec.lean ====
/-
  The function both programs compute over the extended reals, and the tiling law that joins them.

  For x of shape 32 x 8192 x 64 and y of shape 32 x 64 x 64:
    act b l h   = max (sum over k of x[b,l,k] * y[b,k,h]) zero        (the batched product, clipped below at zero)
    rowSum b    = sum over l and h of act b l h                      (one total per batch)
    mean b      = (zero + rowSum b) / 8192
    result      = the maximum over the 32 batches of mean b, starting from minus infinity.
  The three constants stay as the words the two programs print (the same words on both sides), so none is
  evaluated.

  The kernel walks the 8192 rows in eight tiles of 1024: tileSum t b is the part of rowSum b that tile t contributes,
  runSum n b the total of tiles 0..n.  Regrouping a finite sum uses only commutativity and associativity of the
  addition, which hold on the extended reals with no finiteness assumption.
-/
import Idealize.ShloMosaic.PureOps.Ideal
import Idealize.ShloMosaic.Lib.ValueIdx
import proofs.«170011_j1580547969507_1_alg».proof.Proof.LibSums

noncomputable section

open Idealize.ShloMosaic Idealize.ShloMosaic.ValueIdx

namespace Cert.Spec

abbrev SX : Shape := ⟨3, ![32, 8192, 64]⟩
abbrev SY : Shape := ⟨3, ![32, 64, 64]⟩

variable (x : SX.Idx → EReal) (y : SY.Idx → EReal)

/-- The clipped batched product at (b, l, h). -/
def act (b : Fin 32) (l : Fin 8192) (h : Fin 64) : EReal :=
  max (∑ k : Fin 64, x (ix3 b l k) * y (ix3 b k h)) (Ideal.ofBits .f32 0x00000000#32)

/-- One batch's total over rows and columns. -/
def rowSum (b : Fin 32) : EReal := ∑ l : Fin 8192, ∑ h : Fin 64, act x y b l h

/-- Row r of tile t. -/
abbrev tileRow (t : Fin 8) (r : Fin 1024) : Fin 8192 := ⟨t.val * 1024 + r.val, Cert.LibSums.tile_lt t r⟩

/-- What tile t contributes to batch b's total. -/
def tileSum (t : Fin 8) (b : Fin 32) : EReal := ∑ r : Fin 1024, ∑ h : Fin 64, act x y b (tileRow t r) h

/-- The total of tiles 0..n. -/
def runSum (n : ℕ) (b : Fin 32) : EReal := ∑ t ∈ Finset.univ.filter (fun t : Fin 8 => t.val ≤ n), tileSum x y t b

def mean (b : Fin 32) : EReal :=
  Ideal.div (Ideal.ofBits .f32 0x00000000#32 + rowSum x y b) (Ideal.ofBits .f32 0x46000000#32)

def result : EReal := (Finset.univ : Finset (Fin 32)).fold max (Ideal.ofBits .f32 0xFF800000#32) (mean x y)

/-- The eight tiles make up the whole. -/
theorem rowSum_eq_tiles (b : Fin 32) : rowSum x y b = ∑ t : Fin 8, tileSum x y t b :=
  Cert.LibSums.sum_fin_tiles 8 1024 (fun l : Fin (8 * 1024) => ∑ h : Fin 64, act x y b l h)

theorem runSum_zero (b : Fin 32) : runSum x y 0 b = tileSum x y 0 b := by
  unfold runSum
  rw [show (Finset.univ.filter fun t : Fin 8 => t.val ≤ 0) = {0} from by
    ext t; simp only [Finset.mem_filter, Finset.mem_univ, true_and, Finset.mem_singleton, Nat.le_zero]
    exact ⟨fun h => Fin.ext h, fun h => by rw [h]; rfl⟩]
  exact Finset.sum_singleton _ _

theorem runSum_succ (n : ℕ) (hn : n + 1 < 8) (b : Fin 32) :
    runSum x y (n + 1) b = runSum x y n b + tileSum x y ⟨n + 1, hn⟩ b := by
  unfold runSum
  rw [show (Finset.univ.filter fun t : Fin 8 => t.val ≤ n + 1)
      = insert (⟨n + 1, hn⟩ : Fin 8) (Finset.univ.filter fun t : Fin 8 => t.val ≤ n) from by
    ext t
    simp only [Finset.mem_filter, Finset.mem_univ, true_and, Finset.mem_insert]
    constructor
    · intro h
      rcases Nat.lt_or_ge t.val (n + 1) with h' | h'
      · exact Or.inr (Nat.lt_succ_iff.1 h')
      · exact Or.inl (Fin.ext (Nat.le_antisymm h h'))
    · rintro (h | h)
      · rw [h]
      · exact Nat.le_succ_of_le h]
  rw [Finset.sum_insert (by
    simp only [Finset.mem_filter, Finset.mem_univ, true_and]; exact Nat.not_succ_le_self n), add_comm]

theorem runSum_last (b : Fin 32) : runSum x y 7 b = rowSum x y b := by
  rw [rowSum_eq_tiles]
  unfold runSum
  rw [Finset.filter_true_of_mem fun t _ => Nat.lt_succ_iff.1 t.isLt]

end Cert.Spec

end
-- ==== Proof.KernelValue.lean ====
/-
  The kernel's run ends with the specified function in its result.

  The scratch after grid point n holds, at batch b, the zero word plus the total of tiles 0..n: at the first point
  the body stores the zero column and adds tile 0, at each later point it adds the next tile, and a tile's
  contribution read through the two input windows is the clipped batched product over the tile's 1024 rows of x and
  over the whole of y.  After the last point the scratch is the zero word plus the whole total, and the one-element
  output, stored at that point only, is the maximum over the batches of it divided by the word of 8192.  Only the
  last point writes the output's block back, and that block is the whole 1 x 1 array; the reshape to a scalar that
  ends the program reads its one element.
-/
import proofs.«170011_j1580547969507_1_alg».proof.Proof.Gen.KernelIdeal.Frame
import proofs.«170011_j1580547969507_1_alg».proof.Proof.Pieces
import proofs.«170011_j1580547969507_1_alg».proof.Proof.Payloads
import proofs.«170011_j1580547969507_1_alg».proof.Proof.Spec
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (m : (ℓ : Loc nD τ sig) → Buf (Elt Ideal) ℓ) (ρ : Dev nD → PrngReg)

/-- The two argument arrays. -/
abbrev X (c : Dev nD) : Cert.Spec.SX.Idx → EReal := V m c main_arg0
abbrev Y (c : Dev nD) : Cert.Spec.SY.Idx → EReal := V m c main_arg1

/-- A grid point as a tile number. -/
abbrev tile (t : Fin cfg0.N) : Fin 8 := ⟨t.val, lt_of_lt_of_eq t.isLt (show cfg0.N = 8 from N_0)⟩

theorem index_x : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem index_y : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- The block of x at point t holds rows t * 1024 .. t * 1024 + 1023 of x. -/
theorem xblock_apply (c : Dev nD) (t : Fin cfg0.N) (b : Fin 32) (r : Fin 1024) (k : Fin 64) :
    (iblk m c 0 t : Vec Ideal S32x1024x64 .f32) (ix3 b r k) = X m c (ix3 b (Cert.Spec.tileRow (tile t) r) k) := by
  obtain ⟨h0, h1, h2⟩ := index_x t
  unfold iblk
  rw [View.read_apply]
  show V m c main_arg0 _ = V m c main_arg0 _
  congr 1
  funext a
  apply Fin.ext
  match a with
  | ⟨0, _⟩ => show win0_0.index t 0 * 32 + 1 * b.val = b.val; rw [h0]; omega
  | ⟨1, _⟩ => show win0_0.index t 1 * 1024 + 1 * r.val = t.val * 1024 + r.val; rw [h1]; omega
  | ⟨2, _⟩ => show win0_0.index t 2 * 64 + 1 * k.val = k.val; rw [h2]; omega

/-- The block of y at every point is the whole of y. -/
theorem yblock_apply (c : Dev nD) (t : Fin cfg0.N) (b : Fin 32) (k : Fin 64) (h : Fin 64) :
    (iblk m c 1 t : Vec Ideal S32x64x64 .f32) (ix3 b k h) = Y m c (ix3 b k h) := by
  obtain ⟨h0, h1, h2⟩ := index_y t
  unfold iblk
  rw [View.read_apply]
  show V m c main_arg1 _ = V m c main_arg1 _
  congr 1
  funext a
  apply Fin.ext
  match a with
  | ⟨0, _⟩ => show win0_1.index t 0 * 32 + 1 * b.val = b.val; rw [h0]; omega
  | ⟨1, _⟩ => show win0_1.index t 1 * 64 + 1 * k.val = k.val; rw [h1]; omega
  | ⟨2, _⟩ => show win0_1.index t 2 * 64 + 1 * h.val = h.val; rw [h2]; omega

/-- One point's step: what the scratch held plus the point's tile. -/
theorem step_apply (c : Dev nD) (t : Fin cfg0.N) (xs : Vec Ideal S32x1 .f32) (b : Fin 32) :
    k0_pay2 (F := Ideal) (iblk m c 0 t) (iblk m c 1 t) xs (ix2 b 0)
      = xs (ix2 b 0) + Cert.Spec.tileSum (X m c) (Y m c) (tile t) b := by
  refine (Cert.KernelIdeal.Payloads.runningSum_apply (iblk m c 0 t) (iblk m c 1 t) xs b).trans ?_
  unfold Cert.Spec.tileSum Cert.Spec.act
  refine congrArg (xs (ix2 b 0) + ·) (Finset.sum_congr rfl fun r _ => Finset.sum_congr rfl fun h _ => ?_)
  refine congrArg (max · _) (Finset.sum_congr rfl fun k _ => ?_)
  exact congrArg₂ (· * ·) (xblock_apply m c t b r k) (yblock_apply m c t b k h)

/-- THE INDUCTION over the grid points: the scratch after point n is the zero word plus the total of tiles 0..n. -/
theorem scratchAt (c : Dev nD) : ∀ (n : ℕ) (hn : n < cfg0.N) (b : Fin 32),
    (outsAt0 m c n hn).2 (ix2 b 0) = Ideal.ofBits .f32 0x00000000#32 + Cert.Spec.runSum (X m c) (Y m c) n b
  | 0, hn, b => by
    have e := outsAt0_A m c ⟨0, hn⟩ rfl (by dsimp only; omega)
    dsimp only at e
    rw [e]
    dsimp only
    refine (congrFun (Cert.KernelIdeal.Pieces.scratch_A (F := Ideal) c (grid0.coords ⟨0, hn⟩) (ms0_0 ⟨0, hn⟩) (hs0_0 ⟨0, hn⟩)
      (ms0_1 ⟨0, hn⟩) (hs0_1 ⟨0, hn⟩) (ms0_2 ⟨0, hn⟩) (hs0_2 ⟨0, hn⟩) scM0_0 (Memref.isWhole_whole _) _ _
      (iblk m c 0 ⟨0, hn⟩) (iblk m c 1 ⟨0, hn⟩)) (ix2 b 0)).trans ?_
    refine (step_apply m c ⟨0, hn⟩ _ b).trans ?_
    rw [Cert.KernelIdeal.Payloads.zeroCol_apply, Cert.Spec.runSum_zero]
    rfl
  | n + 1, hn, b => by
    have hN : cfg0.N = 8 := N_0
    have h0 : ¬(⟨n + 1, hn⟩ : Fin cfg0.N).val % 8 = 0 := by dsimp only; omega
    have ih := scratchAt c n (Nat.lt_of_succ_lt hn) b
    have adv : ∀ xs : Vec Ideal S32x1 .f32,
        xs (ix2 b 0) = Ideal.ofBits .f32 0x00000000#32 + Cert.Spec.runSum (X m c) (Y m c) n b →
        k0_pay2 (F := Ideal) (iblk m c 0 ⟨n + 1, hn⟩) (iblk m c 1 ⟨n + 1, hn⟩) xs (ix2 b 0)
          = Ideal.ofBits .f32 0x00000000#32 + Cert.Spec.runSum (X m c) (Y m c) (n + 1) b := by
      intro xs hxs
      refine (step_apply m c ⟨n + 1, hn⟩ xs b).trans ?_
      rw [hxs, add_assoc, Cert.Spec.runSum_succ (X m c) (Y m c) n (by omega) b]
    by_cases h7 : (⟨n + 1, hn⟩ : Fin cfg0.N).val % 8 = 7
    · have e := outsAt0_C m c ⟨n + 1, hn⟩ h0 h7
      dsimp only at e
      rw [e]
      dsimp only
      refine (congrFun (Cert.KernelIdeal.Pieces.scratch_C (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) scM0_0 (Memref.isWhole_whole _) _ _
        (iblk m c 0 ⟨n + 1, hn⟩) (iblk m c 1 ⟨n + 1, hn⟩) _) (ix2 b 0)).trans ?_
      exact adv _ ih
    · have e := outsAt0_B m c ⟨n + 1, hn⟩ h0 h7
      dsimp only at e
      rw [e]
      dsimp only
      refine (congrFun (Cert.KernelIdeal.Pieces.scratch_B (F := Ideal) c (grid0.coords ⟨n + 1, hn⟩) (ms0_0 ⟨n + 1, hn⟩) (hs0_0 ⟨n + 1, hn⟩)
        (ms0_1 ⟨n + 1, hn⟩) (hs0_1 ⟨n + 1, hn⟩) (ms0_2 ⟨n + 1, hn⟩) (hs0_2 ⟨n + 1, hn⟩) scM0_0 (Memref.isWhole_whole _) _ _
        (iblk m c 0 ⟨n + 1, hn⟩) (iblk m c 1 ⟨n + 1, hn⟩) _) (ix2 b 0)).trans ?_
      exact adv _ ih

theorem seven_lt : 7 < cfg0.N := by rw [show cfg0.N = 8 from N_0]; decide

/-- The output's staging buffer after the last point: the specified result. -/
theorem lastOutput (c : Dev nD) (j : S1x1.Idx) :
    (outsAt0 m c 7 seven_lt).1 j = Cert.Spec.result (X m c) (Y m c) := by
  have h0 : ¬(⟨7, seven_lt⟩ : Fin cfg0.N).val % 8 = 0 := by decide
  have h7 : (⟨7, seven_lt⟩ : Fin cfg0.N).val % 8 = 7 := rfl
  have e := outsAt0_C m c ⟨7, seven_lt⟩ h0 h7
  dsimp only at e
  have s7 := scratchAt m c 7 seven_lt
  rw [e] at s7 ⊢
  dsimp only at s7 ⊢
  refine (congrFun (Cert.KernelIdeal.Pieces.out_C (F := Ideal) c (grid0.coords ⟨7, seven_lt⟩) (ms0_0 ⟨7, seven_lt⟩) (hs0_0 ⟨7, seven_lt⟩)
    (ms0_1 ⟨7, seven_lt⟩) (hs0_1 ⟨7, seven_lt⟩) (ms0_2 ⟨7, seven_lt⟩) (hs0_2 ⟨7, seven_lt⟩) scM0_0 (Memref.isWhole_whole _) _ _
    (iblk m c 0 ⟨7, seven_lt⟩) (iblk m c 1 ⟨7, seven_lt⟩) _) j).trans ?_
  refine (Cert.KernelIdeal.Payloads.output_apply _ j).trans ?_
  unfold Cert.Spec.result
  refine congrArg (fun f => Finset.fold max _ f Finset.univ) (funext fun b => ?_)
  unfold Cert.Spec.mean
  refine congrArg (Ideal.div · _) ?_
  have sb := s7 b
  rw [Cert.Spec.runSum_last] at sb
  exact (congrFun (Cert.KernelIdeal.Pieces.scratch_C (F := Ideal) c (grid0.coords ⟨7, seven_lt⟩) (ms0_0 ⟨7, seven_lt⟩) (hs0_0 ⟨7, seven_lt⟩)
    (ms0_1 ⟨7, seven_lt⟩) (hs0_1 ⟨7, seven_lt⟩) (ms0_2 ⟨7, seven_lt⟩) (hs0_2 ⟨7, seven_lt⟩) scM0_0 (Memref.isWhole_whole _) _ _
    (iblk m c 0 ⟨7, seven_lt⟩) (iblk m c 1 ⟨7, seven_lt⟩) _) (ix2 b 0)).symm.trans sb

/-- The kernel's 1 x 1 result array: the specified result at its one index. -/
abbrev G (c : Dev nD) : Buf (Elt Ideal) ((c : Thread nD τ).loc main_v0) := fun _ => Cert.Spec.result (X m c) (Y m c)

/-- The one write-back, at the last point, writes it. -/
theorem flushed_eq (c : Dev nD) (t : Fin cfg0.N) (hf : (cfg0.win 2).flush t = true) :
    (dats m 0 c).flushed 2 t = ((cfg0.win 2).blk t).view.read (Elt Ideal) (G m c) := by
  have hN : cfg0.N = 8 := N_0
  have h7 : t.val = 7 := by have := (flush0_2 t).mp hf; have := t.isLt; omega
  obtain rfl : t = ⟨7, seven_lt⟩ := Fin.ext h7
  show (cfg0.win 2).cut (grid0.coords ⟨7, seven_lt⟩) ((dats m 0 c).after 2 ⟨7, seven_lt⟩) = _
  rw [after0_2]
  funext y
  rw [View.read_apply]
  exact lastOutput m c _

/-- The last point's block is the whole 1 x 1 array, so the array ends at the result. -/
theorem final (c : Dev nD) : (dats m 0 c).arrAt 2 cfg0.N = G m c :=
  (dats m 0 c).arrAt_eq_of_cover 2 (G m c) (flushed_eq m c) fun i =>
    ⟨⟨7, seven_lt⟩, (flush0_2 ⟨7, seven_lt⟩).mpr rfl, by
      show i ∈ ((View.whole main_v0).slice (win0_2.rect ⟨7, seven_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨7, seven_lt⟩ 0 * win0_2.size 0 ≤ (i 0 : Nat) ∧ (i 0 : Nat) < win0_2.index ⟨7, seven_lt⟩ 0 * win0_2.size 0 + win0_2.xsize (grid0.coords ⟨7, seven_lt⟩) 0
        rw [show win0_2.index ⟨7, seven_lt⟩ 0 * win0_2.size 0 = 0 from by decide +kernel, show win0_2.xsize (grid0.coords ⟨7, seven_lt⟩) 0 = 1 from by decide +kernel]
        omega
      | ⟨1, _⟩ =>
        show win0_2.index ⟨7, seven_lt⟩ 1 * win0_2.size 1 ≤ (i 1 : Nat) ∧ (i 1 : Nat) < win0_2.index ⟨7, seven_lt⟩ 1 * win0_2.size 1 + win0_2.xsize (grid0.coords ⟨7, seven_lt⟩) 1
        rw [show win0_2.index ⟨7, seven_lt⟩ 1 * win0_2.size 1 = 0 from by decide +kernel, show win0_2.xsize (grid0.coords ⟨7, seven_lt⟩) 1 = 1 from by decide +kernel]
        omega⟩

/-- The program's result: the reshape of the 1 x 1 array to a scalar reads its one element. -/
theorem tail_eq (c : Dev nD) :
    Pipeline.afterTail₀ cfgs (dats m) 0 (V0 m) [hostOps1] c main_v1 = fun _ => Cert.Spec.result (X m c) (Y m c) := by
  unfold Pipeline.afterTail₀
  show StableHlo.after hostOps1 _ (Proc.devRef .tc main_v1) = _
  after_results
  rw [(Pipeline.withArrays_arr spec0 launch0.win.arr_inj c _ _ 2).trans (final m c)]
  rfl

theorem result_mem : main_v1 ∈ Pipeline.restRefs sig (cfgs 0).spec :=
  Pipeline.mem_restRefs_of main_v1 rfl (fun w => by fin_cases w <;> decide)

/-- THE RUN, read: the scalar result at the specified function of the arguments, the arguments unchanged. -/
theorem run : θ_run defs (onTc (τ := τ) (main (F := Ideal))) ⟨m, fun _ => 0, ρ⟩ fun r => ∀ c : Dev nD,
      r.2.mem ((c.tc : Thread nD τ).loc main_v1) = (fun _ => Cert.Spec.result (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.RefValue.lean ====
/-
  The reference computes the specified function.

  Its program is: the batched product of x and y, the clip at zero, the sum over rows and columns of each batch
  (from the zero word), the division by the word of 8192, and the maximum over the batches (from the word of minus
  infinity).  The product, the clip and the division are read element by element; the sum over two axes is read as
  the sum over all indices with the batch's leading coordinate, hence as the double sum over rows and columns; the
  maximum into a rank-zero result runs over every batch.
-/
import proofs.«170011_j1580547969507_1_alg».proof.Proof.Gen.ReferenceIdeal.Read
import proofs.«170011_j1580547969507_1_alg».proof.Proof.Spec
import Idealize.ShloMosaic.PureOps.Ideal.Laws
import Idealize.ShloMosaic.Lib.ValueIdx

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read

variable (x0 : (⟨S32x8192x64, .f32⟩ : BufTy).Contents (Elt Ideal)) (x1 : (⟨S32x64x64, .f32⟩ : BufTy).Contents (Elt Ideal))

/-- The clipped product at (b, l, h). -/
theorem clipped_apply (b : Fin 32) (l : Fin 8192) (h : Fin 64) :
    val_main_v1 (F := Ideal) x0 x1 (ix3 b l h) = Cert.Spec.act x0 x1 b l h := by
  have el : ∀ k : Fin 64, lidx_main_v0 (ix3 b l h) k = ix3 b l k := fun k => funext fun a => Fin.ext (by
    match a with | ⟨0, _⟩ => rfl | ⟨1, _⟩ => rfl | ⟨2, _⟩ => rfl)
  have er : ∀ k : Fin 64, ridx_main_v0 (ix3 b l h) k = ix3 b k h := fun k => funext fun a => Fin.ext (by
    match a with | ⟨0, _⟩ => rfl | ⟨1, _⟩ => rfl | ⟨2, _⟩ => rfl)
  rw [val_main_v1_apply, val_main_v0_apply, val_main_call0_v0_apply, val_main_call0_cst_apply]
  simp only [el, er]
  rfl

/-- One batch's total: the zero word plus the double sum. -/
theorem total_apply (b : Fin 32) :
    val_main_v2 (F := Ideal) x0 x1 (ix1 b) = Ideal.ofBits .f32 0x00000000#32 + Cert.Spec.rowSum x0 x1 b := by
  unfold val_main_v2
  simp only [Host.reduceAdd, Ideal.hostReduceAdd_def]
  unfold Ideal.hostReduceAdd Cert.Spec.rowSum
  refine congrArg₂ (· + ·) rfl ?_
  rw [Cert.LibSums.sum_filter_lead b (fun i => reducesTo_S32x8192x64_S32_d1_2.drop i = ix1 b) (fun i => ?_)
    (val_main_v1 (F := Ideal) x0 x1)]
  · exact Finset.sum_congr rfl fun l _ => Finset.sum_congr rfl fun h _ => clipped_apply x0 x1 b l h
  · constructor
    · intro e
      have := congrArg (fun j : S32.Idx => (j 0).val) e
      exact this
    · intro e
      funext d
      match d with
      | ⟨0, _⟩ => exact Fin.ext e

/-- One batch's mean. -/
theorem mean_apply (b : Fin 32) : val_main_v4 (F := Ideal) x0 x1 (ix1 b) = Cert.Spec.mean x0 x1 b := by
  rw [val_main_v4_apply, total_apply, val_main_v3_apply, val_main_cst_0_apply]
  rfl

/-- The result: the maximum of the means. -/
theorem result_eq : val_main_v5 (F := Ideal) x0 x1 = fun _ => Cert.Spec.result x0 x1 := by
  funext j
  unfold val_main_v5
  rw [Host.reduce_eq_fold]
  unfold Cert.Spec.result
  show Finset.fold max (Ideal.ofBits .f32 0xFF800000#32) (val_main_v4 (F := Ideal) x0 x1) _ = _
  refine Cert.LibSums.fold_max_eq _ _ _ _ _ (fun i _ => ⟨i 0, Finset.mem_univ _, ?_⟩) (fun b _ => ⟨ix1 b, ?_, ?_⟩)
  · exact (congrArg (val_main_v4 (F := Ideal) x0 x1) (eq_ix1 i)).trans (mean_apply x0 x1 (i 0))
  · exact Finset.mem_filter.2 ⟨Finset.mem_univ _, funext fun a => a.elim0⟩
  · exact (mean_apply x0 x1 b).symm

end Cert.ReferenceIdeal.RefValue

end
-- ==== Proof.lean ====
/-
  The certificate: the kernel and its reference compute the same scalar over the extended reals.

  For x of shape 32 x 8192 x 64 and y of shape 32 x 64 x 64 both programs return
      the maximum over the 32 batches b of ( sum over rows l and columns h of max(sum over k of x[b,l,k] * y[b,k,h], 0) ) / 8192.
  The reference computes it in one pass.  The kernel walks the rows in eight tiles of 1024, keeping a running sum per
  batch that starts from zero at the first tile, and takes the division and the maximum after the last tile; its
  operands pass through a narrower float format on the way to the matrix unit, which over the extended reals is the
  identity.  The two sums differ only in how the terms are grouped, and regrouping a finite sum needs only that the
  addition commutes and associates, so the inputs' finiteness is never used.

  The three frames: the kernel's two (as printed and idealized) are the generated frame runs; the reference's is its
  generated run with the result dropped.  The idealization rewrote nothing, so it is preserved trivially.
-/
import proofs.«170011_j1580547969507_1_alg».proof.Defs
import proofs.«170011_j1580547969507_1_alg».proof.Proof.Gen.Kernel
import proofs.«170011_j1580547969507_1_alg».proof.Proof.Gen.Kernel.Skeleton
import proofs.«170011_j1580547969507_1_alg».proof.Proof.Gen.Kernel.Launch
import proofs.«170011_j1580547969507_1_alg».proof.Proof.Gen.Kernel.Points
import proofs.«170011_j1580547969507_1_alg».proof.Proof.Gen.Kernel.Frame
import proofs.«170011_j1580547969507_1_alg».proof.Proof.Gen.KernelIdeal
import proofs.«170011_j1580547969507_1_alg».proof.Proof.Gen.KernelIdeal.Skeleton
import proofs.«170011_j1580547969507_1_alg».proof.Proof.Gen.KernelIdeal.Launch
import proofs.«170011_j1580547969507_1_alg».proof.Proof.Gen.KernelIdeal.Points
import proofs.«170011_j1580547969507_1_alg».proof.Proof.Gen.KernelIdeal.Frame
import proofs.«170011_j1580547969507_1_alg».proof.Proof.Gen.ReferenceIdeal
import proofs.«170011_j1580547969507_1_alg».proof.Proof.Gen.Pre_finite_inputs
import proofs.«170011_j1580547969507_1_alg».proof.Proof.Gen.ReferenceIdeal.Run
import proofs.«170011_j1580547969507_1_alg».proof.Proof.Gen.ReferenceIdeal.Read
import proofs.«170011_j1580547969507_1_alg».proof.Proof.KernelValue
import proofs.«170011_j1580547969507_1_alg».proof.Proof.RefValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal :=
  fun m ρ _ => (θ_run Cert.ReferenceIdeal.defs _ _).mono (fun _ h c => (h c).2)
    (Cert.ReferenceIdeal.Value.run (F := Ideal) m ρ)

/-- Both runs end at the specified result of arguments that agree. -/
theorem algebraic : Cert.algebraic_KernelIdeal_ReferenceIdeal := by
  intro m ρ m' ρ' _ hagree
  refine ⟨fun c => fun _ => Cert.Spec.result (Cert.KernelIdeal.Val.X m c) (Cert.KernelIdeal.Val.Y m c),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
